-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64x128 .f32) (main_arg10 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S64x128 .f32) (main_arg9 : FVec F S64x128 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S64x128 .f32) (main_arg9 : FVec F S64x128 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 85
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S128x64, .f32⟩
  | .hbm, ⟨82, _⟩ => ⟨S128x64, .f32⟩
  | .hbm, ⟨83, _⟩ => ⟨S1x64, .f32⟩
  | .hbm, ⟨84, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S128x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S128x64, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S50000x1, .f32⟩
  | .hbm, ⟨110, _⟩ => ⟨S50000x1, .f32⟩
  | .hbm, ⟨111, _⟩ => ⟨S50000x64, .f32⟩
  | .hbm, ⟨112, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_v0 : Ref sig .tc := ⟨.hbm, 103, rfl⟩
abbrev main_call2_cst : Ref sig .tc := ⟨.hbm, 104, rfl⟩
abbrev main_call2_v1 : Ref sig .tc := ⟨.hbm, 105, rfl⟩
abbrev main_call2_v2 : Ref sig .tc := ⟨.hbm, 106, rfl⟩
abbrev main_v75 : Ref sig .tc := ⟨.hbm, 107, rfl⟩
abbrev main_cst_11 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of the three layers, stated once over plain index functions on the extended reals.

  A layer takes the aggregated neighbour features `A` and the node features `X` (both `[n, 128]`), two weight matrices
  already laid out `[128, o]` (input channel first) and a bias `b` on the `o` output channels. Its affine part at node `p`
  and channel `q` is

      lin p q = (Σ_k A[p,k] · Wl[k,q] + Σ_k X[p,k] · Wr[k,q]) + b[q].

  The first two layers clamp it below at the zero word; the last layer divides a row by the larger of its Euclidean norm
  `√(Σ_j lin p j ²)` and a fixed small word. The sum of the three terms taken in the other order, the bias between the
  two products, is the same extended real: addition there is commutative and associative with no side condition.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The affine part of a layer at node `p`, output channel `q`: the two products summed, then the bias. -/
def lin {n o : ℕ} (A X : (⟨2, ![n, 128]⟩ : Shape).Idx → EReal) (Wl Wr : (⟨2, ![128, o]⟩ : Shape).Idx → EReal)
    (b : Fin o → EReal) (p : Fin n) (q : Fin o) : EReal :=
  (∑ k : Fin 128, A (ix2 p k) * Wl (ix2 k q) + ∑ k : Fin 128, X (ix2 p k) * Wr (ix2 k q)) + b q

/-- The same three terms with the bias added between the two products. -/
theorem lin_bias_between {n o : ℕ} (A X : (⟨2, ![n, 128]⟩ : Shape).Idx → EReal) (Wl Wr : (⟨2, ![128, o]⟩ : Shape).Idx → EReal)
    (b : Fin o → EReal) (p : Fin n) (q : Fin o) :
    (∑ k : Fin 128, A (ix2 p k) * Wl (ix2 k q) + b q) + ∑ k : Fin 128, X (ix2 p k) * Wr (ix2 k q) = lin A X Wl Wr b p q :=
  add_right_comm _ _ _

/-- A hidden layer: the affine part clamped below at the zero word. -/
def relu {n o : ℕ} (A X : (⟨2, ![n, 128]⟩ : Shape).Idx → EReal) (Wl Wr : (⟨2, ![128, o]⟩ : Shape).Idx → EReal)
    (b : Fin o → EReal) (p : Fin n) (q : Fin o) : EReal :=
  max (lin A X Wl Wr b p q) (Ideal.ofBits .f32 0x00000000#32)

/-- The squared Euclidean length of node `p`'s affine row. -/
def sq {n o : ℕ} (A X : (⟨2, ![n, 128]⟩ : Shape).Idx → EReal) (Wl Wr : (⟨2, ![128, o]⟩ : Shape).Idx → EReal)
    (b : Fin o → EReal) (p : Fin n) : EReal :=
  ∑ j : Fin o, lin A X Wl Wr b p j * lin A X Wl Wr b p j

/-- The last layer: the affine row divided by the larger of its Euclidean length and the small word. -/
def unit {n o : ℕ} (A X : (⟨2, ![n, 128]⟩ : Shape).Idx → EReal) (Wl Wr : (⟨2, ![128, o]⟩ : Shape).Idx → EReal)
    (b : Fin o → EReal) (p : Fin n) (q : Fin o) : EReal :=
  Ideal.div (lin A X Wl Wr b p q) (max (Ideal.sqrt (sq A X Wl Wr b p)) (Ideal.ofBits .f32 0x2B8CBCCC#32))

/-- A function of the two coordinates as an array over the `[n, o]` index type. -/
def onIdx {n o : ℕ} (f : Fin n → Fin o → EReal) : (⟨2, ![n, o]⟩ : Shape).Idx → EReal := fun i => f (i 0) (i 1)

theorem onIdx_ix2 {n o : ℕ} (f : Fin n → Fin o → EReal) (p : Fin n) (q : Fin o) : onIdx f (ix2 p q) = f p q := rfl

/-- A layer reads only row `p` of `A` and of `X`: two pairs of arrays whose rows `p` and `p'` agree give the same affine value. -/
theorem lin_congr_rows {n n' o : ℕ} (A X : (⟨2, ![n, 128]⟩ : Shape).Idx → EReal) (A' X' : (⟨2, ![n', 128]⟩ : Shape).Idx → EReal)
    (Wl Wr : (⟨2, ![128, o]⟩ : Shape).Idx → EReal) (b : Fin o → EReal) (p : Fin n) (p' : Fin n')
    (hA : ∀ k : Fin 128, A (ix2 p k) = A' (ix2 p' k)) (hX : ∀ k : Fin 128, X (ix2 p k) = X' (ix2 p' k)) (q : Fin o) :
    lin A X Wl Wr b p q = lin A' X' Wl Wr b p' q := by
  unfold lin
  simp only [hA, hX]

theorem relu_congr_rows {n n' o : ℕ} (A X : (⟨2, ![n, 128]⟩ : Shape).Idx → EReal) (A' X' : (⟨2, ![n', 128]⟩ : Shape).Idx → EReal)
    (Wl Wr : (⟨2, ![128, o]⟩ : Shape).Idx → EReal) (b : Fin o → EReal) (p : Fin n) (p' : Fin n')
    (hA : ∀ k : Fin 128, A (ix2 p k) = A' (ix2 p' k)) (hX : ∀ k : Fin 128, X (ix2 p k) = X' (ix2 p' k)) (q : Fin o) :
    relu A X Wl Wr b p q = relu A' X' Wl Wr b p' q := by
  unfold relu
  rw [lin_congr_rows A X A' X' Wl Wr b p p' hA hX q]

theorem unit_congr_rows {n n' o : ℕ} (A X : (⟨2, ![n, 128]⟩ : Shape).Idx → EReal) (A' X' : (⟨2, ![n', 128]⟩ : Shape).Idx → EReal)
    (Wl Wr : (⟨2, ![128, o]⟩ : Shape).Idx → EReal) (b : Fin o → EReal) (p : Fin n) (p' : Fin n')
    (hA : ∀ k : Fin 128, A (ix2 p k) = A' (ix2 p' k)) (hX : ∀ k : Fin 128, X (ix2 p k) = X' (ix2 p' k)) (q : Fin o) :
    unit A X Wl Wr b p q = unit A' X' Wl Wr b p' q := by
  unfold unit sq
  simp only [lin_congr_rows A X A' X' Wl Wr b p p' hA hX]

end Cert.Sage

end
-- ==== Proof.Chain.lean ====
/-
  The part of a layer that both programs compute with the same host operations, named once so that neither side ever opens it.

  From the edge list `e : [2, 800000]` of node ids: `srcOf e` and `dstOf e` are its two rows; `invDeg d` is, per node, one over
  the larger of its in-degree (a scatter-add of ones along `d`) and one, kept as a `[50000, 1]` column. `agg h s d v` gathers
  the rows `h[s]` (a negative id wrapped by 50000 first), scatter-adds them along `d` into a zero array and scales row `p` by
  `v[p]`: the mean of the in-neighbours' features. A hidden layer `hid` is the clamped affine map of the specification applied
  to that mean and to `h` itself, with the two weight matrices transposed to input-channel-first; the last layer `fin` is the
  normalised one; `net` is the three in sequence.
-/
import proofs.«117779_j36747740184682_1_alg».proof.Proof.Gen.KernelIdeal
import proofs.«117779_j36747740184682_1_alg».proof.Proof.Spec
import Idealize.ShloMosaic.PureOps.Ideal
import Idealize.ShloMosaic.Lib.ValueIdx

noncomputable section

namespace Cert.KernelIdeal.Named

open Cert.KernelIdeal Cert.KernelIdeal.Facts₀ Cert.KernelIdeal.Facts Idealize.ShloMosaic Idealize.ShloMosaic.ValueIdx

/-- The edges' source ids: row 0 of the edge list. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edges' destination ids: row 1 of the edge list. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- One over max(in-degree, 1), a column over the nodes. -/
def invDeg (d : (⟨S800000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32))
      (maximumf (F := Ideal)
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 d)
          (broadcastInDim S800000 ![] bcast_S_S800000 (constant (F := Ideal) S_ .f32 0x3F800000#32)))
        (broadcastInDim S50000 ![] bcast_S_S50000 (constant (F := Ideal) S_ .f32 0x3F800000#32))))

/-- The mean of the in-neighbours' rows of `h`: gather along `s`, scatter-add along `d`, scale row-wise by `v`. -/
def agg (h : (⟨S50000x128, .f32⟩ : BufTy).Contents (Elt Ideal)) (s d : (⟨S800000, .i32⟩ : BufTy).Contents (Elt Ideal))
    (v : (⟨S50000x1, .f32⟩ : BufTy).Contents (Elt Ideal)) : (⟨S50000x128, .f32⟩ : BufTy).Contents (Elt Ideal) :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1 v)

/-- The neighbour mean straight from the edge list. -/
def mean (h : (⟨S50000x128, .f32⟩ : BufTy).Contents (Elt Ideal)) (e : (⟨S2x800000, .i32⟩ : BufTy).Contents (Elt Ideal)) :
    (⟨S50000x128, .f32⟩ : BufTy).Contents (Elt Ideal) :=
  agg h (srcOf e) (dstOf e) (invDeg (dstOf e))

/-- A `[128, 128]` weight matrix with its axes exchanged: input channel first. -/
def tr (w : (⟨S128x128, .f32⟩ : BufTy).Contents (Elt Ideal)) : (⟨S128x128, .f32⟩ : BufTy).Contents (Elt Ideal) :=
  transpose S128x128 [1, 0] w transposes_S128x128_S128x128_1_0

/-- A `[64, 128]` weight matrix with its axes exchanged: `[128, 64]`. -/
def trLast (w : (⟨S64x128, .f32⟩ : BufTy).Contents (Elt Ideal)) : (⟨S128x64, .f32⟩ : BufTy).Contents (Elt Ideal) :=
  transpose S128x64 [1, 0] w transposes_S64x128_S128x64_1_0

/-- A hidden layer on the whole node array. -/
def hid (h : (⟨S50000x128, .f32⟩ : BufTy).Contents (Elt Ideal)) (e : (⟨S2x800000, .i32⟩ : BufTy).Contents (Elt Ideal))
    (wl wr : (⟨S128x128, .f32⟩ : BufTy).Contents (Elt Ideal)) (b : (⟨S128, .f32⟩ : BufTy).Contents (Elt Ideal)) :
    (⟨S50000x128, .f32⟩ : BufTy).Contents (Elt Ideal) :=
  Cert.Sage.onIdx (Cert.Sage.relu (mean h e) h (tr wl) (tr wr) (fun q => b (ix1 q)))

/-- The last layer on the whole node array. -/
def fin (h : (⟨S50000x128, .f32⟩ : BufTy).Contents (Elt Ideal)) (e : (⟨S2x800000, .i32⟩ : BufTy).Contents (Elt Ideal))
    (wl wr : (⟨S64x128, .f32⟩ : BufTy).Contents (Elt Ideal)) (b : (⟨S64, .f32⟩ : BufTy).Contents (Elt Ideal)) :
    (⟨S50000x64, .f32⟩ : BufTy).Contents (Elt Ideal) :=
  Cert.Sage.onIdx (Cert.Sage.unit (mean h e) h (trLast wl) (trLast wr) (fun q => b (ix1 q)))

/-- The three layers in sequence. -/
def net (x : (⟨S50000x128, .f32⟩ : BufTy).Contents (Elt Ideal)) (e : (⟨S2x800000, .i32⟩ : BufTy).Contents (Elt Ideal))
    (w1l w1r : (⟨S128x128, .f32⟩ : BufTy).Contents (Elt Ideal)) (b1 : (⟨S128, .f32⟩ : BufTy).Contents (Elt Ideal))
    (w2l w2r : (⟨S128x128, .f32⟩ : BufTy).Contents (Elt Ideal)) (b2 : (⟨S128, .f32⟩ : BufTy).Contents (Elt Ideal))
    (w3l w3r : (⟨S64x128, .f32⟩ : BufTy).Contents (Elt Ideal)) (b3 : (⟨S64, .f32⟩ : BufTy).Contents (Elt Ideal)) :
    (⟨S50000x64, .f32⟩ : BufTy).Contents (Elt Ideal) :=
  fin (hid (hid x e w1l w1r b1) e w2l w2r b2) e w3l w3r b3

end Cert.KernelIdeal.Named

end
-- ==== Proof.Stretch.lean ====
/-
  What each of the three regions finds in its five input arrays, read back through the host operations that run before it.

  Region 0 is entered with the neighbour mean of the node features, the node features themselves, the first layer's two weight
  matrices transposed and its bias as a `[1, 128]` row. Region 1 finds the same five things built from region 0's output array
  and the second layer's parameters, region 2 from region 1's output and the last layer's. The edge list's two rows and the
  inverse-degree column are computed once, before region 0; no later operation and no region writes them, nor any argument,
  so every later read of them walks back to that first stretch.
-/
import proofs.«117779_j36747740184682_1_alg».proof.Proof.Gen.KernelIdeal.Frame
import proofs.«117779_j36747740184682_1_alg».proof.Proof.Chain
import Idealize.ShloMosaic.Lib.StableHlo.Run

set_option maxRecDepth 16384

noncomputable section

namespace Cert.KernelIdeal.Named

open Cert.KernelIdeal Cert.KernelIdeal.Gen Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Before region 0 -/

theorem in0_mean (c : Dev nD) : W1 m ρ c (Proc.devRef .tc main_v24)
    = mean (m ((c : Thread nD τ).loc main_arg0)) (m ((c : Thread nD τ).loc main_arg1)) := by
  dsimp only [W1, hostOps0]; after_results_simp; rfl
theorem in0_x (c : Dev nD) : W1 m ρ c (Proc.devRef .tc main_arg0) = m ((c : Thread nD τ).loc main_arg0) := by
  dsimp only [W1, hostOps0]; after_results_simp
theorem in0_wl (c : Dev nD) : W1 m ρ c (Proc.devRef .tc main_v25) = tr (m ((c : Thread nD τ).loc main_arg2)) := by
  dsimp only [W1, hostOps0]; after_results_simp; rfl
theorem in0_wr (c : Dev nD) : W1 m ρ c (Proc.devRef .tc main_v26) = tr (m ((c : Thread nD τ).loc main_arg3)) := by
  dsimp only [W1, hostOps0]; after_results_simp; rfl
theorem in0_b (c : Dev nD) : W1 m ρ c (Proc.devRef .tc main_v27)
    = shapeCast S1x128 (m ((c : Thread nD τ).loc main_arg4)) Facts₀.shapeCasts_S128_S1x128 := by
  dsimp only [W1, hostOps0]; after_results_simp; rfl

/-- The three things every layer shares, as the first stretch leaves them. -/
theorem in0_src (c : Dev nD) : W1 m ρ c (Proc.devRef .tc main_v1) = srcOf (m ((c : Thread nD τ).loc main_arg1)) := by
  dsimp only [W1, hostOps0]; after_results_simp; rfl
theorem in0_dst (c : Dev nD) : W1 m ρ c (Proc.devRef .tc main_v3) = dstOf (m ((c : Thread nD τ).loc main_arg1)) := by
  dsimp only [W1, hostOps0]; after_results_simp; rfl
theorem in0_inv (c : Dev nD) : W1 m ρ c (Proc.devRef .tc main_v12) = invDeg (dstOf (m ((c : Thread nD τ).loc main_arg1))) := by
  dsimp only [W1, hostOps0]; after_results_simp; rfl
theorem in0_arg5 (c : Dev nD) : W1 m ρ c (Proc.devRef .tc main_arg5) = m ((c : Thread nD τ).loc main_arg5) := by
  dsimp only [W1, hostOps0]; after_results_simp
theorem in0_arg6 (c : Dev nD) : W1 m ρ c (Proc.devRef .tc main_arg6) = m ((c : Thread nD τ).loc main_arg6) := by
  dsimp only [W1, hostOps0]; after_results_simp
theorem in0_arg7 (c : Dev nD) : W1 m ρ c (Proc.devRef .tc main_arg7) = m ((c : Thread nD τ).loc main_arg7) := by
  dsimp only [W1, hostOps0]; after_results_simp
theorem in0_arg8 (c : Dev nD) : W1 m ρ c (Proc.devRef .tc main_arg8) = m ((c : Thread nD τ).loc main_arg8) := by
  dsimp only [W1, hostOps0]; after_results_simp
theorem in0_arg9 (c : Dev nD) : W1 m ρ c (Proc.devRef .tc main_arg9) = m ((c : Thread nD τ).loc main_arg9) := by
  dsimp only [W1, hostOps0]; after_results_simp
theorem in0_arg10 (c : Dev nD) : W1 m ρ c (Proc.devRef .tc main_arg10) = m ((c : Thread nD τ).loc main_arg10) := by
  dsimp only [W1, hostOps0]; after_results_simp

/-! ## Region 0 writes only its output array -/

theorem out0_main_v1 (c : Dev nD) : W2 m ρ c (Proc.devRef .tc main_v1) = W1 m ρ c (Proc.devRef .tc main_v1) := W2_of_ne m ρ c main_v1 (by decide)
theorem out0_main_v3 (c : Dev nD) : W2 m ρ c (Proc.devRef .tc main_v3) = W1 m ρ c (Proc.devRef .tc main_v3) := W2_of_ne m ρ c main_v3 (by decide)
theorem out0_main_v12 (c : Dev nD) : W2 m ρ c (Proc.devRef .tc main_v12) = W1 m ρ c (Proc.devRef .tc main_v12) := W2_of_ne m ρ c main_v12 (by decide)
theorem out0_main_arg5 (c : Dev nD) : W2 m ρ c (Proc.devRef .tc main_arg5) = W1 m ρ c (Proc.devRef .tc main_arg5) := W2_of_ne m ρ c main_arg5 (by decide)
theorem out0_main_arg6 (c : Dev nD) : W2 m ρ c (Proc.devRef .tc main_arg6) = W1 m ρ c (Proc.devRef .tc main_arg6) := W2_of_ne m ρ c main_arg6 (by decide)
theorem out0_main_arg7 (c : Dev nD) : W2 m ρ c (Proc.devRef .tc main_arg7) = W1 m ρ c (Proc.devRef .tc main_arg7) := W2_of_ne m ρ c main_arg7 (by decide)
theorem out0_main_arg8 (c : Dev nD) : W2 m ρ c (Proc.devRef .tc main_arg8) = W1 m ρ c (Proc.devRef .tc main_arg8) := W2_of_ne m ρ c main_arg8 (by decide)
theorem out0_main_arg9 (c : Dev nD) : W2 m ρ c (Proc.devRef .tc main_arg9) = W1 m ρ c (Proc.devRef .tc main_arg9) := W2_of_ne m ρ c main_arg9 (by decide)
theorem out0_main_arg10 (c : Dev nD) : W2 m ρ c (Proc.devRef .tc main_arg10) = W1 m ρ c (Proc.devRef .tc main_arg10) := W2_of_ne m ρ c main_arg10 (by decide)

/-! ## Before region 1 -/

theorem in1_mean (c : Dev nD) : W3 m ρ c (Proc.devRef .tc main_v40)
    = mean (W2 m ρ c (Proc.devRef .tc main_v28)) (m ((c : Thread nD τ).loc main_arg1)) := by
  have h : W3 m ρ c (Proc.devRef .tc main_v40)
      = agg (W2 m ρ c (Proc.devRef .tc main_v28)) (W2 m ρ c (Proc.devRef .tc main_v1)) (W2 m ρ c (Proc.devRef .tc main_v3)) (W2 m ρ c (Proc.devRef .tc main_v12)) := by
    dsimp only [W3, hostOps1]; after_results_simp; rfl
  rw [h, out0_main_v1, out0_main_v3, out0_main_v12, in0_src, in0_dst, in0_inv]; rfl
theorem in1_h (c : Dev nD) : W3 m ρ c (Proc.devRef .tc main_v28) = W2 m ρ c (Proc.devRef .tc main_v28) := by
  dsimp only [W3, hostOps1]; after_results_simp
theorem in1_wl (c : Dev nD) : W3 m ρ c (Proc.devRef .tc main_v41) = tr (m ((c : Thread nD τ).loc main_arg5)) := by
  have h : W3 m ρ c (Proc.devRef .tc main_v41) = tr (W2 m ρ c (Proc.devRef .tc main_arg5)) := by
    dsimp only [W3, hostOps1]; after_results_simp; rfl
  rw [h, out0_main_arg5, in0_arg5]
theorem in1_wr (c : Dev nD) : W3 m ρ c (Proc.devRef .tc main_v42) = tr (m ((c : Thread nD τ).loc main_arg6)) := by
  have h : W3 m ρ c (Proc.devRef .tc main_v42) = tr (W2 m ρ c (Proc.devRef .tc main_arg6)) := by
    dsimp only [W3, hostOps1]; after_results_simp; rfl
  rw [h, out0_main_arg6, in0_arg6]
theorem in1_b (c : Dev nD) : W3 m ρ c (Proc.devRef .tc main_v43)
    = shapeCast S1x128 (m ((c : Thread nD τ).loc main_arg7)) Facts₀.shapeCasts_S128_S1x128 := by
  have h : W3 m ρ c (Proc.devRef .tc main_v43) = shapeCast S1x128 (W2 m ρ c (Proc.devRef .tc main_arg7)) Facts₀.shapeCasts_S128_S1x128 := by
    dsimp only [W3, hostOps1]; after_results_simp; rfl
  rw [h, out0_main_arg7, in0_arg7]

/-- What the second stretch leaves untouched. -/
theorem mid1_main_v1 (c : Dev nD) : W3 m ρ c (Proc.devRef .tc main_v1) = W2 m ρ c (Proc.devRef .tc main_v1) := by
  dsimp only [W3, hostOps1]; after_results_simp
theorem mid1_main_v3 (c : Dev nD) : W3 m ρ c (Proc.devRef .tc main_v3) = W2 m ρ c (Proc.devRef .tc main_v3) := by
  dsimp only [W3, hostOps1]; after_results_simp
theorem mid1_main_v12 (c : Dev nD) : W3 m ρ c (Proc.devRef .tc main_v12) = W2 m ρ c (Proc.devRef .tc main_v12) := by
  dsimp only [W3, hostOps1]; after_results_simp
theorem mid1_main_arg8 (c : Dev nD) : W3 m ρ c (Proc.devRef .tc main_arg8) = W2 m ρ c (Proc.devRef .tc main_arg8) := by
  dsimp only [W3, hostOps1]; after_results_simp
theorem mid1_main_arg9 (c : Dev nD) : W3 m ρ c (Proc.devRef .tc main_arg9) = W2 m ρ c (Proc.devRef .tc main_arg9) := by
  dsimp only [W3, hostOps1]; after_results_simp
theorem mid1_main_arg10 (c : Dev nD) : W3 m ρ c (Proc.devRef .tc main_arg10) = W2 m ρ c (Proc.devRef .tc main_arg10) := by
  dsimp only [W3, hostOps1]; after_results_simp
theorem out1_main_v1 (c : Dev nD) : W4 m ρ c (Proc.devRef .tc main_v1) = W3 m ρ c (Proc.devRef .tc main_v1) := W4_of_ne m ρ c main_v1 (by decide)
theorem out1_main_v3 (c : Dev nD) : W4 m ρ c (Proc.devRef .tc main_v3) = W3 m ρ c (Proc.devRef .tc main_v3) := W4_of_ne m ρ c main_v3 (by decide)
theorem out1_main_v12 (c : Dev nD) : W4 m ρ c (Proc.devRef .tc main_v12) = W3 m ρ c (Proc.devRef .tc main_v12) := W4_of_ne m ρ c main_v12 (by decide)
theorem out1_main_arg8 (c : Dev nD) : W4 m ρ c (Proc.devRef .tc main_arg8) = W3 m ρ c (Proc.devRef .tc main_arg8) := W4_of_ne m ρ c main_arg8 (by decide)
theorem out1_main_arg9 (c : Dev nD) : W4 m ρ c (Proc.devRef .tc main_arg9) = W3 m ρ c (Proc.devRef .tc main_arg9) := W4_of_ne m ρ c main_arg9 (by decide)
theorem out1_main_arg10 (c : Dev nD) : W4 m ρ c (Proc.devRef .tc main_arg10) = W3 m ρ c (Proc.devRef .tc main_arg10) := W4_of_ne m ρ c main_arg10 (by decide)

/-! ## Before region 2 -/

theorem in2_mean (c : Dev nD) : W5 m ρ c (Proc.devRef .tc main_v56)
    = mean (W4 m ρ c (Proc.devRef .tc main_v44)) (m ((c : Thread nD τ).loc main_arg1)) := by
  have h : W5 m ρ c (Proc.devRef .tc main_v56)
      = agg (W4 m ρ c (Proc.devRef .tc main_v44)) (W4 m ρ c (Proc.devRef .tc main_v1)) (W4 m ρ c (Proc.devRef .tc main_v3)) (W4 m ρ c (Proc.devRef .tc main_v12)) := by
    dsimp only [W5, hostOps2]; after_results_simp; rfl
  rw [h, out1_main_v1, out1_main_v3, out1_main_v12, mid1_main_v1, mid1_main_v3, mid1_main_v12,
    out0_main_v1, out0_main_v3, out0_main_v12, in0_src, in0_dst, in0_inv]; rfl
theorem in2_h (c : Dev nD) : W5 m ρ c (Proc.devRef .tc main_v44) = W4 m ρ c (Proc.devRef .tc main_v44) := by
  dsimp only [W5, hostOps2]; after_results_simp
theorem in2_wl (c : Dev nD) : W5 m ρ c (Proc.devRef .tc main_v57) = trLast (m ((c : Thread nD τ).loc main_arg8)) := by
  have h : W5 m ρ c (Proc.devRef .tc main_v57) = trLast (W4 m ρ c (Proc.devRef .tc main_arg8)) := by
    dsimp only [W5, hostOps2]; after_results_simp; rfl
  rw [h, out1_main_arg8, mid1_main_arg8, out0_main_arg8, in0_arg8]
theorem in2_wr (c : Dev nD) : W5 m ρ c (Proc.devRef .tc main_v58) = trLast (m ((c : Thread nD τ).loc main_arg9)) := by
  have h : W5 m ρ c (Proc.devRef .tc main_v58) = trLast (W4 m ρ c (Proc.devRef .tc main_arg9)) := by
    dsimp only [W5, hostOps2]; after_results_simp; rfl
  rw [h, out1_main_arg9, mid1_main_arg9, out0_main_arg9, in0_arg9]
theorem in2_b (c : Dev nD) : W5 m ρ c (Proc.devRef .tc main_v59)
    = shapeCast S1x64 (m ((c : Thread nD τ).loc main_arg10)) Facts₀.shapeCasts_S64_S1x64 := by
  have h : W5 m ρ c (Proc.devRef .tc main_v59) = shapeCast S1x64 (W4 m ρ c (Proc.devRef .tc main_arg10)) Facts₀.shapeCasts_S64_S1x64 := by
    dsimp only [W5, hostOps2]; after_results_simp; rfl
  rw [h, out1_main_arg10, mid1_main_arg10, out0_main_arg10, in0_arg10]

end Cert.KernelIdeal.Named

end
-- ==== Proof.PayHidden.lean ====
/-
  The body of a hidden layer's kernel read at one index, at the ideal instance.

  There the floats are the extended reals, a change of float format is the identity, a shape cast to the same shape is the
  identity, and a matrix product accumulated into the zero splat is the plain sum over the one contracted axis. So the
  stored value at node `p`, channel `q` is

      max ((Σ_k A[p,k] · Wl[k,q] + Σ_k X[p,k] · Wr[k,q]) + b[0,q]) 0,

  the clamped affine value of the specification. Both hidden layers have this body; the second also casts its second
  `[5000, 128]` operand to its own shape first.
-/
import proofs.«117779_j36747740184682_1_alg».proof.Proof.Gen.KernelIdeal.Skeleton
import proofs.«117779_j36747740184682_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem

/-! ## The operand indices of the `[5000,128] × [128,128]` product, one axis at a time -/

/-- The left operand's row is the output's row. -/
theorem lhs_hidden_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_hidden_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the contracted coordinate. -/
theorem rhs_hidden_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column is the output's column. -/
theorem rhs_hidden_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The product into the zero splat, at an index -/

/-- Accumulated into zero, the product at `(p, q)` is the sum over the 128 contracted positions. -/
theorem matmul_zero_at (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_hidden_0 _ _).trans hk
    | ⟨1, _⟩ => exact rhs_hidden_1 _ _)
  rw [el, er]

/-- The product of two arrays narrowed to the short format is the product of the arrays themselves. -/
theorem matmul_truncf_at (A : FVec Ideal S5000x128 .f32) (W : FVec Ideal S128x128 .f32) (p : Fin 5000) (q : Fin 128) :
    matmul dot_S5000x128_S128x128_S5000x128_1_0_0_1_n_n none (truncf .bf16 A bitsLt_bf16_f32) (truncf .bf16 W bitsLt_bf16_f32)
        (constant (F := Ideal) S5000x128 .f32 0x00000000#32) (ix2 p q)
      = ∑ k : Fin 128, A (ix2 p k) * W (ix2 k q) :=
  (matmul_zero_at _ _ p q).trans (Finset.sum_congr rfl fun k _ => by rw [truncf_apply, truncf_apply])

/-! ## The two hidden layers -/

theorem hidden0_at (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q) = Cert.Sage.relu x0 x1 x2 x3 (fun c => x4 (ix2 (0 : Fin 1) c)) p q := by
  unfold k0_pay1
  rw [maximumf_apply, addf_apply, addf_apply, broadcast_apply, shapeCast_self, shapeCast_self, shapeCast_self, shapeCast_self,
    matmul_truncf_at, matmul_truncf_at, broadcastTo_1b_ab_apply]
  rfl

theorem hidden1_at (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q) = Cert.Sage.relu x0 x1 x2 x3 (fun c => x4 (ix2 (0 : Fin 1) c)) p q := by
  unfold k1_pay1
  rw [maximumf_apply, addf_apply, addf_apply, broadcast_apply, shapeCast_self, shapeCast_self, shapeCast_self, shapeCast_self, shapeCast_self,
    matmul_truncf_at, matmul_truncf_at, broadcastTo_1b_ab_apply]
  rfl

end Cert.KernelIdeal.Named

end
-- ==== Proof.Region0.lean ====
/-
  The first hidden layer, from blocks to the whole array.

  The grid has ten points. Point `t` reads rows `5000·t … 5000·t + 4999` of the two feature arrays, all of the two weight
  matrices and the bias row, and writes rows `5000·t … 5000·t + 4999` of the result. A layer's value at node `p` reads only
  row `p` of the features, so what point `t` writes back is block `t` of ONE function of the whole arrays, the clamped affine
  layer; the ten blocks cover the result array, which therefore ends holding that function.
-/
import proofs.«117779_j36747740184682_1_alg».proof.Proof.Gen.KernelIdeal.Frame
import proofs.«117779_j36747740184682_1_alg».proof.Proof.PayHidden
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer rectangle, as a constant function. -/
theorem zero_off0 : (![0, 0] : Fin 2 → Nat) = fun _ => 0 := funext fun a => by fin_cases a <;> rfl

/-- The block indices over the grid: the two feature windows and the result window sit at block `(t, 0)`, the weight
    matrices and the bias row at block `(0, 0)`. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One element of a block. If the feature blocks `x0`, `x1` are rows `5000·n …` of the arrays `A`, `X` and the other
    three blocks are the whole weight matrices and bias row, the body's payload at block index `y` is the clamped affine
    layer of the whole arrays at the array index `i` that sits `5000·n` rows further down. -/
theorem hidden0_block_at (A X : S50000x128.Idx → EReal) (Wl Wr : S128x128.Idx → EReal) (b : S1x128.Idx → EReal)
    (x0 x1 : FVec Ideal S5000x128 .f32) (x2 x3 : FVec Ideal S128x128 .f32) (x4 : FVec Ideal S1x128 .f32) (n : ℕ)
    (h0 : ∀ (y : S5000x128.Idx) (i : S50000x128.Idx), (i 0).val = n * 5000 + (y 0).val → (i 1).val = (y 1).val → x0 y = A i)
    (h1 : ∀ (y : S5000x128.Idx) (i : S50000x128.Idx), (i 0).val = n * 5000 + (y 0).val → (i 1).val = (y 1).val → x1 y = X i)
    (h2 : x2 = Wl) (h3 : x3 = Wr) (h4 : x4 = b)
    (y : S5000x128.Idx) (i : S50000x128.Idx) (hi0 : (i 0).val = n * 5000 + (y 0).val) (hi1 : (i 1).val = (y 1).val) :
    k0_pay1 (F := Ideal) x0 x1 x2 x3 x4 y
      = Cert.Sage.onIdx (Cert.Sage.relu A X Wl Wr (fun q => b (ix2 (0 : Fin 1) q))) i := by
  subst h2 h3 h4
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = n * 5000 + p.val := hi0
  obtain rfl : s = q := Fin.ext hi1
  rw [hidden0_at, Cert.Sage.onIdx_ix2]
  exact Cert.Sage.relu_congr_rows (n := 5000) (n' := 50000) (o := 128) x0 x1 A X x2 x3 _ p r
    (fun k => h0 (ix2 p k) (ix2 r k) hr rfl) (fun k => h1 (ix2 p k) (ix2 r k) hr rfl) s

/-- A feature window's block at point `t` is rows `5000·t … 5000·t + 4999` of its array: the aggregated features, -/
theorem feat0_0_at (c : Dev nD) (t : Fin cfg0.N) (y : S5000x128.Idx) (i : S50000x128.Idx)
    (h0 : (i 0).val = t.val * 5000 + (y 0).val) (h1 : (i 1).val = (y 1).val) :
    (iblk0 (F := Ideal) V c 0 t : FVec Ideal S5000x128 .f32) y = (V c main_v24 : S50000x128.Idx → EReal) i := by
  obtain ⟨e00, e01, -⟩ := block_index0 t
  show (V c main_v24 : S50000x128.Idx → EReal) (((cfg0.win 0).blk t).view.emb y) = (V c main_v24 : S50000x128.Idx → EReal) i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- and the node's own features. -/
theorem feat0_1_at (c : Dev nD) (t : Fin cfg0.N) (y : S5000x128.Idx) (i : S50000x128.Idx)
    (h0 : (i 0).val = t.val * 5000 + (y 0).val) (h1 : (i 1).val = (y 1).val) :
    (iblk0 (F := Ideal) V c 1 t : FVec Ideal S5000x128 .f32) y = (V c main_arg0 : S50000x128.Idx → EReal) i := by
  obtain ⟨-, -, e10, e11, -⟩ := block_index0 t
  show (V c main_arg0 : S50000x128.Idx → EReal) (((cfg0.win 1).blk t).view.emb y) = (V c main_arg0 : S50000x128.Idx → EReal) i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The weight windows' block at every point is the whole matrix: the one applied to the aggregated features, -/
theorem weight0_2_eq (c : Dev nD) (t : Fin cfg0.N) :
    (iblk0 (F := Ideal) V c 2 t : FVec Ideal S128x128 .f32) = (V c main_v25 : S128x128.Idx → EReal) := by
  obtain ⟨-, -, -, -, e20, e21, -⟩ := block_index0 t
  funext y
  show (V c main_v25 : S128x128.Idx → EReal) (((cfg0.win 2).blk t).view.emb y) = (V c main_v25 : S128x128.Idx → EReal) y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- the one applied to the node's own features, -/
theorem weight0_3_eq (c : Dev nD) (t : Fin cfg0.N) :
    (iblk0 (F := Ideal) V c 3 t : FVec Ideal S128x128 .f32) = (V c main_v26 : S128x128.Idx → EReal) := by
  obtain ⟨-, -, -, -, -, -, e30, e31, -⟩ := block_index0 t
  funext y
  show (V c main_v26 : S128x128.Idx → EReal) (((cfg0.win 3).blk t).view.emb y) = (V c main_v26 : S128x128.Idx → EReal) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- and the bias window's block is the whole bias row. -/
theorem bias0_4_eq (c : Dev nD) (t : Fin cfg0.N) :
    (iblk0 (F := Ideal) V c 4 t : FVec Ideal S1x128 .f32) = (V c main_v27 : S1x128.Idx → EReal) := by
  obtain ⟨-, -, -, -, -, -, -, -, e40, e41, -⟩ := block_index0 t
  funext y
  show (V c main_v27 : S1x128.Idx → EReal) (((cfg0.win 4).blk t).view.emb y) = (V c main_v27 : S1x128.Idx → EReal) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT `t` WRITES BACK is block `t` of the clamped affine layer of the arrays as the region finds them. -/
theorem flushed0_eq (c : Dev nD) (t : Fin cfg0.N) :
    (dat0 (F := Ideal) V c).flushed 5 t
      = ((cfg0.win 5).blk t).view.read (Elt Ideal)
          (Cert.Sage.onIdx (Cert.Sage.relu (V c main_v24) (V c main_arg0) (V c main_v25) (V c main_v26)
            (fun q => V c main_v27 (ix2 (0 : Fin 1) q)))) := by
  show (cfg0.win 5).cut (grid0.coords t) ((dat0 V c).after 5 t) = _
  rw [after0_5]
  unfold out0_5
  rw [View.canon_unit_zero zero_off0]
  simp only [View.ld_unit_zero (S := S5000x128) zero_off0, View.ld_unit_zero (S := S128x128) zero_off0,
    View.ld_unit_zero (S := S1x128) zero_off0]
  obtain ⟨-, -, -, -, -, -, -, -, -, -, e50, e51⟩ := block_index0 t
  funext y
  refine hidden0_block_at (V c main_v24) (V c main_arg0) (V c main_v25) (V c main_v26) (V c main_v27)
    (iblk0 V c 0 t) (iblk0 V c 1 t) (iblk0 V c 2 t) (iblk0 V c 3 t) (iblk0 V c 4 t) t.val
    (feat0_0_at V c t) (feat0_1_at V c t) (weight0_2_eq V c t) (weight0_3_eq V c t) (bias0_4_eq V c t)
    y (((cfg0.win 5).blk t).view.emb y) ?_ ?_
  · show win0_5.index t (0 : Fin 2) * 5000 + 1 * (y 0).val = t.val * 5000 + (y 0).val; omega
  · show win0_5.index t (1 : Fin 2) * 128 + 1 * (y 1).val = (y 1).val; omega

/-- An index of the result array is in point `t`'s block iff each coordinate is in the block's range on its axis. -/
theorem mem_blk0 (t : Fin cfg0.N) (i : S50000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every index of the result array is in the block of the point its row number divided by 5000 names. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  obtain ⟨-, -, -, -, -, -, -, -, -, -, e50, e51⟩ := block_index0 ⟨(i 0).val / 5000, by rw [hN]; omega⟩
  rw [mem_blk0]
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

theorem final0 (c : Dev nD) :
    (dat0 (F := Ideal) V c).arrAt 5 cfg0.N
      = Cert.Sage.onIdx (Cert.Sage.relu (V c main_v24) (V c main_arg0) (V c main_v25) (V c main_v26)
          (fun q => V c main_v27 (ix2 (0 : Fin 1) q))) :=
  (dat0 (F := Ideal) V c).arrAt_eq_of_cover 5 _ (fun t _ => flushed0_eq V c t) cover0

end Cert.KernelIdeal.Named

end
-- ==== Proof.Region1.lean ====
/-
  The second hidden layer, from blocks to the whole array.

  The grid has ten points. Point `t` reads rows `5000·t … 5000·t + 4999` of the two feature arrays (the aggregated first-layer
  features and the first layer's result), all of the two weight matrices and the bias row, and writes rows
  `5000·t … 5000·t + 4999` of the result. A layer's value at node `p` reads only row `p` of the features, so what point `t`
  writes back is block `t` of ONE function of the whole arrays, the clamped affine layer; the ten blocks cover the result
  array, which therefore ends holding that function.
-/
import proofs.«117779_j36747740184682_1_alg».proof.Proof.Gen.KernelIdeal.Frame
import proofs.«117779_j36747740184682_1_alg».proof.Proof.PayHidden
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer rectangle, as a constant function. -/
theorem zero_off1 : (![0, 0] : Fin 2 → Nat) = fun _ => 0 := funext fun a => by fin_cases a <;> rfl

/-- The block indices over the grid: the two feature windows and the result window sit at block `(t, 0)`, the weight
    matrices and the bias row at block `(0, 0)`. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One element of a block. If the feature blocks `x0`, `x1` are rows `5000·n …` of the arrays `A`, `X` and the other
    three blocks are the whole weight matrices and bias row, the body's payload at block index `y` is the clamped affine
    layer of the whole arrays at the array index `i` that sits `5000·n` rows further down. -/
theorem hidden1_block_at (A X : S50000x128.Idx → EReal) (Wl Wr : S128x128.Idx → EReal) (b : S1x128.Idx → EReal)
    (x0 x1 : FVec Ideal S5000x128 .f32) (x2 x3 : FVec Ideal S128x128 .f32) (x4 : FVec Ideal S1x128 .f32) (n : ℕ)
    (h0 : ∀ (y : S5000x128.Idx) (i : S50000x128.Idx), (i 0).val = n * 5000 + (y 0).val → (i 1).val = (y 1).val → x0 y = A i)
    (h1 : ∀ (y : S5000x128.Idx) (i : S50000x128.Idx), (i 0).val = n * 5000 + (y 0).val → (i 1).val = (y 1).val → x1 y = X i)
    (h2 : x2 = Wl) (h3 : x3 = Wr) (h4 : x4 = b)
    (y : S5000x128.Idx) (i : S50000x128.Idx) (hi0 : (i 0).val = n * 5000 + (y 0).val) (hi1 : (i 1).val = (y 1).val) :
    k1_pay1 (F := Ideal) x0 x1 x2 x3 x4 y
      = Cert.Sage.onIdx (Cert.Sage.relu A X Wl Wr (fun q => b (ix2 (0 : Fin 1) q))) i := by
  subst h2 h3 h4
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = n * 5000 + p.val := hi0
  obtain rfl : s = q := Fin.ext hi1
  rw [hidden1_at, Cert.Sage.onIdx_ix2]
  exact Cert.Sage.relu_congr_rows (n := 5000) (n' := 50000) (o := 128) x0 x1 A X x2 x3 _ p r
    (fun k => h0 (ix2 p k) (ix2 r k) hr rfl) (fun k => h1 (ix2 p k) (ix2 r k) hr rfl) s

/-- A feature window's block at point `t` is rows `5000·t … 5000·t + 4999` of its array: the aggregated features, -/
theorem feat1_0_at (c : Dev nD) (t : Fin cfg1.N) (y : S5000x128.Idx) (i : S50000x128.Idx)
    (h0 : (i 0).val = t.val * 5000 + (y 0).val) (h1 : (i 1).val = (y 1).val) :
    (iblk1 (F := Ideal) V c 0 t : FVec Ideal S5000x128 .f32) y = (V c main_v40 : S50000x128.Idx → EReal) i := by
  obtain ⟨e00, e01, -⟩ := block_index1 t
  show (V c main_v40 : S50000x128.Idx → EReal) (((cfg1.win 0).blk t).view.emb y) = (V c main_v40 : S50000x128.Idx → EReal) i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- and the node's own features. -/
theorem feat1_1_at (c : Dev nD) (t : Fin cfg1.N) (y : S5000x128.Idx) (i : S50000x128.Idx)
    (h0 : (i 0).val = t.val * 5000 + (y 0).val) (h1 : (i 1).val = (y 1).val) :
    (iblk1 (F := Ideal) V c 1 t : FVec Ideal S5000x128 .f32) y = (V c main_v28 : S50000x128.Idx → EReal) i := by
  obtain ⟨-, -, e10, e11, -⟩ := block_index1 t
  show (V c main_v28 : S50000x128.Idx → EReal) (((cfg1.win 1).blk t).view.emb y) = (V c main_v28 : S50000x128.Idx → EReal) i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The weight windows' block at every point is the whole matrix: the one applied to the aggregated features, -/
theorem weight1_2_eq (c : Dev nD) (t : Fin cfg1.N) :
    (iblk1 (F := Ideal) V c 2 t : FVec Ideal S128x128 .f32) = (V c main_v41 : S128x128.Idx → EReal) := by
  obtain ⟨-, -, -, -, e20, e21, -⟩ := block_index1 t
  funext y
  show (V c main_v41 : S128x128.Idx → EReal) (((cfg1.win 2).blk t).view.emb y) = (V c main_v41 : S128x128.Idx → EReal) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- the one applied to the node's own features, -/
theorem weight1_3_eq (c : Dev nD) (t : Fin cfg1.N) :
    (iblk1 (F := Ideal) V c 3 t : FVec Ideal S128x128 .f32) = (V c main_v42 : S128x128.Idx → EReal) := by
  obtain ⟨-, -, -, -, -, -, e30, e31, -⟩ := block_index1 t
  funext y
  show (V c main_v42 : S128x128.Idx → EReal) (((cfg1.win 3).blk t).view.emb y) = (V c main_v42 : S128x128.Idx → EReal) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- and the bias window's block is the whole bias row. -/
theorem bias1_4_eq (c : Dev nD) (t : Fin cfg1.N) :
    (iblk1 (F := Ideal) V c 4 t : FVec Ideal S1x128 .f32) = (V c main_v43 : S1x128.Idx → EReal) := by
  obtain ⟨-, -, -, -, -, -, -, -, e40, e41, -⟩ := block_index1 t
  funext y
  show (V c main_v43 : S1x128.Idx → EReal) (((cfg1.win 4).blk t).view.emb y) = (V c main_v43 : S1x128.Idx → EReal) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- WHAT POINT `t` WRITES BACK is block `t` of the clamped affine layer of the arrays as the region finds them. -/
theorem flushed1_eq (c : Dev nD) (t : Fin cfg1.N) :
    (dat1 (F := Ideal) V c).flushed 5 t
      = ((cfg1.win 5).blk t).view.read (Elt Ideal)
          (Cert.Sage.onIdx (Cert.Sage.relu (V c main_v40) (V c main_v28) (V c main_v41) (V c main_v42)
            (fun q => V c main_v43 (ix2 (0 : Fin 1) q)))) := by
  show (cfg1.win 5).cut (grid1.coords t) ((dat1 V c).after 5 t) = _
  rw [after1_5]
  unfold out1_5
  rw [View.canon_unit_zero zero_off1]
  simp only [View.ld_unit_zero (S := S5000x128) zero_off1, View.ld_unit_zero (S := S128x128) zero_off1,
    View.ld_unit_zero (S := S1x128) zero_off1]
  obtain ⟨-, -, -, -, -, -, -, -, -, -, e50, e51⟩ := block_index1 t
  funext y
  refine hidden1_block_at (V c main_v40) (V c main_v28) (V c main_v41) (V c main_v42) (V c main_v43)
    (iblk1 V c 0 t) (iblk1 V c 1 t) (iblk1 V c 2 t) (iblk1 V c 3 t) (iblk1 V c 4 t) t.val
    (feat1_0_at V c t) (feat1_1_at V c t) (weight1_2_eq V c t) (weight1_3_eq V c t) (bias1_4_eq V c t)
    y (((cfg1.win 5).blk t).view.emb y) ?_ ?_
  · show win1_5.index t (0 : Fin 2) * 5000 + 1 * (y 0).val = t.val * 5000 + (y 0).val; omega
  · show win1_5.index t (1 : Fin 2) * 128 + 1 * (y 1).val = (y 1).val; omega

/-- An index of the result array is in point `t`'s block iff each coordinate is in the block's range on its axis. -/
theorem mem_blk1 (t : Fin cfg1.N) (i : S50000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every index of the result array is in the block of the point its row number divided by 5000 names. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  obtain ⟨-, -, -, -, -, -, -, -, -, -, e50, e51⟩ := block_index1 ⟨(i 0).val / 5000, by rw [hN]; omega⟩
  rw [mem_blk1]
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

theorem final1 (c : Dev nD) :
    (dat1 (F := Ideal) V c).arrAt 5 cfg1.N
      = Cert.Sage.onIdx (Cert.Sage.relu (V c main_v40) (V c main_v28) (V c main_v41) (V c main_v42)
          (fun q => V c main_v43 (ix2 (0 : Fin 1) q))) :=
  (dat1 (F := Ideal) V c).arrAt_eq_of_cover 5 _ (fun t _ => flushed1_eq V c t) cover1

end Cert.KernelIdeal.Named

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.PayLast.lean ====
/-
  The last layer's stored value read at one node `p` and one output channel `q`, at the extended reals.

  The stored array is the affine row divided by the larger of its Euclidean length and a small word. Read at `(p, q)`:
  each of the two block products is the sum over the 128 input channels of the operands' products (the narrowing of an
  operand changes nothing on the extended reals); the bias row is one row repeated for every node; the squares are summed
  along the 64 output channels of row `p`, the sum is kept as a one-column array, its root is compared with the small
  word there, and the column is spread back along the row, so the divisor at `(p, q)` is the one of row `p`.
-/
import proofs.«117779_j36747740184682_1_alg».proof.Proof.Gen.KernelIdeal.Skeleton
import proofs.«117779_j36747740184682_1_alg».proof.Proof.Spec
import proofs.«117779_j36747740184682_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem

/-! ## The block product `[5000, 128] × [128, 64]` at an output index -/

/-- The left operand's row coordinate is the output's row. -/
private theorem lhs_last_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted one. -/
private theorem lhs_last_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
/-- The right operand's row coordinate is the contracted one. -/
private theorem rhs_last_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
/-- The right operand's column coordinate is the output's column. -/
private theorem rhs_last_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product accumulated into the zero splat, at `(p, j)`: the sum over the input channel `k` of `a[p, k] · w[k, j]`. -/
private theorem product_at {φ₁ φ₂ : FTy} (a : FVec Ideal S5000x128 φ₁) (w : FVec Ideal S128x64 φ₂) (p : Fin 5000) (j : Fin 64) :
    matmul dot_S5000x128_S128x64_S5000x64_1_0_0_1_n_n none a w (constant (F := Ideal) S5000x64 .f32 0x00000000#32) (ix2 p j)
      = ∑ k : Fin 128, a (ix2 p k) * w (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k := funext fun ax => Fin.ext (by
    match ax with
    | ⟨0, _⟩ => exact lhs_last_0 _ _
    | ⟨1, _⟩ => exact (lhs_last_1 _ _).trans hk)
  have er : dot_S5000x128_S128x64_S5000x64_1_0_0_1_n_n.rhsIdx (ix2 p j) ((contrEquiv1 dot_S5000x128_S128x64_S5000x64_1_0_0_1_n_n 128 rfl rfl).symm k) = ix2 k j := funext fun ax => Fin.ext (by
    match ax with
    | ⟨0, _⟩ => exact (rhs_last_0 _ _).trans hk
    | ⟨1, _⟩ => exact rhs_last_1 _ _)
  rw [el, er]

/-! ## The affine part -/

/-- The affine part of the last layer as the kernel computes it: the two block products of the narrowed operands, each
    accumulated into the zero splat, added, then the bias row spread over the nodes added. -/
private def affine (x0 x1 : FVec Ideal S5000x128 .f32) (x2 x3 : FVec Ideal S128x64 .f32) (x4 : FVec Ideal S1x64 .f32) :
    FVec Ideal S5000x64 .f32 :=
  addf
    (addf
      (matmul dot_S5000x128_S128x64_S5000x64_1_0_0_1_n_n none
        (truncf .bf16 (shapeCast S5000x128 x0 shapeCasts_S5000x128_S5000x128) bitsLt_bf16_f32)
        (truncf .bf16 (shapeCast S128x64 x2 shapeCasts_S128x64_S128x64) bitsLt_bf16_f32)
        (constant S5000x64 .f32 0x00000000#32))
      (matmul dot_S5000x128_S128x64_S5000x64_1_0_0_1_n_n none
        (truncf .bf16 (shapeCast S5000x128 x1 shapeCasts_S5000x128_S5000x128) bitsLt_bf16_f32)
        (truncf .bf16 (shapeCast S128x64 x3 shapeCasts_S128x64_S128x64) bitsLt_bf16_f32)
        (constant S5000x64 .f32 0x00000000#32)))
    (broadcastTo S5000x64 (shapeCast S1x64 x4 shapeCasts_S1x64_S1x64) broadcasts_S1x64_S5000x64)

/-- At `(p, j)` it is the specification's affine value of node `p`, channel `j`, with the bias read off the one bias row. -/
private theorem affine_at (x0 x1 : FVec Ideal S5000x128 .f32) (x2 x3 : FVec Ideal S128x64 .f32) (x4 : FVec Ideal S1x64 .f32)
    (p : Fin 5000) (j : Fin 64) :
    affine x0 x1 x2 x3 x4 (ix2 p j) = Cert.Sage.lin x0 x1 x2 x3 (fun c => x4 (ix2 (0 : Fin 1) c)) p j := by
  unfold affine Cert.Sage.lin
  rw [addf_apply, addf_apply, product_at, product_at, broadcastTo_1b_ab_apply]
  simp only [shapeCast_self, truncf_apply]

/-! ## The division by the row's length -/

/-- A `[5000, 64]` array divided by the larger of its rows' Euclidean lengths and the small word, as the kernel computes
    it: squares summed along the row from the zero word, the sums kept as a column, rooted, compared with the splat of the
    small word, spread back along the rows. -/
private def normalised (v : FVec Ideal S5000x64 .f32) : FVec Ideal S5000x64 .f32 :=
  divf v
    (broadcastTo S5000x64
      (maximumf
        (sqrt (shapeCast S5000x1
          (multiReduction (F := Ideal) .add [1] S5000 (mulf v v) 0x00000000#32 reduces_S5000x64_S5000 (.inl rfl) rfl)
          shapeCasts_S5000_S5000x1))
        (broadcast S5000x1 (Scalar.ofBits (F := Ideal) .f32 0x2B8CBCCC#32)))
      broadcasts_S5000x1_S5000x64)

/-- At `(p, q)`: the entry divided by the larger of the root of row `p`'s sum of squares and the small word. -/
private theorem normalised_at (v : FVec Ideal S5000x64 .f32) (p : Fin 5000) (q : Fin 64) :
    normalised v (ix2 p q)
      = Ideal.div (v (ix2 p q)) (max (Ideal.sqrt (∑ j : Fin 64, v (ix2 p j) * v (ix2 p j))) (Ideal.ofBits .f32 0x2B8CBCCC#32)) := by
  unfold normalised
  rw [divf_apply, Cert.Keepdims.broadcastTo_a1_ab_apply, maximumf_apply]
  show Ideal.div _ (max (Ideal.sqrt (shapeCast S5000x1 _ shapeCasts_S5000_S5000x1 (ix2 p (0 : Fin 1)))) _) = _
  rw [Cert.Keepdims.shapeCast_a_a1_apply, Cert.Keepdims.rowSum_apply]
  rfl

/-- The payload is the affine part, normalised: the same operations in the same order. -/
private theorem pay_eq (x0 x1 : FVec Ideal S5000x128 .f32) (x2 x3 : FVec Ideal S128x64 .f32) (x4 : FVec Ideal S1x64 .f32) :
    k2_pay1 (F := Ideal) x0 x1 x2 x3 x4 = normalised (affine x0 x1 x2 x3 x4) := rfl

theorem last_at (x0 x1 : FVec Ideal S5000x128 .f32) (x2 x3 : FVec Ideal S128x64 .f32) (x4 : FVec Ideal S1x64 .f32)
    (p : Fin 5000) (q : Fin 64) :
    k2_pay1 (F := Ideal) x0 x1 x2 x3 x4 (ix2 p q) = Cert.Sage.unit x0 x1 x2 x3 (fun c => x4 (ix2 (0 : Fin 1) c)) p q := by
  rw [pay_eq, normalised_at]
  unfold Cert.Sage.unit Cert.Sage.sq
  simp only [affine_at]

end Cert.KernelIdeal.Named

end
-- ==== Proof.Region2.lean ====
/-
  The last layer, from blocks to the whole array.

  The grid has ten points. Point `t` reads rows `5000·t … 5000·t + 4999` of the two feature arrays (the aggregated second-layer
  features and the second layer's result), all of the two `[128, 64]` weight matrices and the bias row, and writes rows
  `5000·t … 5000·t + 4999` of the `[50000, 64]` result. The normalized affine layer at node `p` reads only row `p` of the
  features — the Euclidean length it divides by is that of node `p`'s own affine row —, so what point `t` writes back is
  block `t` of ONE function of the whole arrays; the ten blocks cover the result array, which therefore ends holding that
  function.
-/
import proofs.«117779_j36747740184682_1_alg».proof.Proof.Gen.KernelIdeal.Frame
import proofs.«117779_j36747740184682_1_alg».proof.Proof.PayLast
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer rectangle, as a constant function. -/
theorem zero_off2 : (![0, 0] : Fin 2 → Nat) = fun _ => 0 := funext fun a => by fin_cases a <;> rfl

/-- The block indices over the grid: the two feature windows and the result window sit at block `(t, 0)`, the weight
    matrices and the bias row at block `(0, 0)`. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One element of a block. If the feature blocks `x0`, `x1` are rows `5000·n …` of the arrays `A`, `X` and the other
    three blocks are the whole weight matrices and bias row, the body's payload at block index `y` is the normalized affine
    layer of the whole arrays at the array index `i` that sits `5000·n` rows further down. -/
theorem last_block_at (A X : S50000x128.Idx → EReal) (Wl Wr : S128x64.Idx → EReal) (b : S1x64.Idx → EReal)
    (x0 x1 : FVec Ideal S5000x128 .f32) (x2 x3 : FVec Ideal S128x64 .f32) (x4 : FVec Ideal S1x64 .f32) (n : ℕ)
    (h0 : ∀ (y : S5000x128.Idx) (i : S50000x128.Idx), (i 0).val = n * 5000 + (y 0).val → (i 1).val = (y 1).val → x0 y = A i)
    (h1 : ∀ (y : S5000x128.Idx) (i : S50000x128.Idx), (i 0).val = n * 5000 + (y 0).val → (i 1).val = (y 1).val → x1 y = X i)
    (h2 : x2 = Wl) (h3 : x3 = Wr) (h4 : x4 = b)
    (y : S5000x64.Idx) (i : S50000x64.Idx) (hi0 : (i 0).val = n * 5000 + (y 0).val) (hi1 : (i 1).val = (y 1).val) :
    k2_pay1 (F := Ideal) x0 x1 x2 x3 x4 y
      = Cert.Sage.onIdx (Cert.Sage.unit A X Wl Wr (fun q => b (ix2 (0 : Fin 1) q))) i := by
  subst h2 h3 h4
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  have hr : r.val = n * 5000 + p.val := hi0
  obtain rfl : s = q := Fin.ext hi1
  rw [last_at, Cert.Sage.onIdx_ix2]
  exact Cert.Sage.unit_congr_rows (n := 5000) (n' := 50000) (o := 64) x0 x1 A X x2 x3 _ p r
    (fun k => h0 (ix2 p k) (ix2 r k) hr rfl) (fun k => h1 (ix2 p k) (ix2 r k) hr rfl) s

/-- A feature window's block at point `t` is rows `5000·t … 5000·t + 4999` of its array: the aggregated features, -/
theorem feat2_0_at (c : Dev nD) (t : Fin cfg2.N) (y : S5000x128.Idx) (i : S50000x128.Idx)
    (h0 : (i 0).val = t.val * 5000 + (y 0).val) (h1 : (i 1).val = (y 1).val) :
    (iblk2 (F := Ideal) V c 0 t : FVec Ideal S5000x128 .f32) y = (V c main_v56 : S50000x128.Idx → EReal) i := by
  obtain ⟨e00, e01, -⟩ := block_index2 t
  show (V c main_v56 : S50000x128.Idx → EReal) (((cfg2.win 0).blk t).view.emb y) = (V c main_v56 : S50000x128.Idx → EReal) i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- and the node's own features. -/
theorem feat2_1_at (c : Dev nD) (t : Fin cfg2.N) (y : S5000x128.Idx) (i : S50000x128.Idx)
    (h0 : (i 0).val = t.val * 5000 + (y 0).val) (h1 : (i 1).val = (y 1).val) :
    (iblk2 (F := Ideal) V c 1 t : FVec Ideal S5000x128 .f32) y = (V c main_v44 : S50000x128.Idx → EReal) i := by
  obtain ⟨-, -, e10, e11, -⟩ := block_index2 t
  show (V c main_v44 : S50000x128.Idx → EReal) (((cfg2.win 1).blk t).view.emb y) = (V c main_v44 : S50000x128.Idx → EReal) i
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- The weight windows' block at every point is the whole matrix: the one applied to the aggregated features, -/
theorem weight2_2_eq (c : Dev nD) (t : Fin cfg2.N) :
    (iblk2 (F := Ideal) V c 2 t : FVec Ideal S128x64 .f32) = (V c main_v57 : S128x64.Idx → EReal) := by
  obtain ⟨-, -, -, -, e20, e21, -⟩ := block_index2 t
  funext y
  show (V c main_v57 : S128x64.Idx → EReal) (((cfg2.win 2).blk t).view.emb y) = (V c main_v57 : S128x64.Idx → EReal) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- the one applied to the node's own features, -/
theorem weight2_3_eq (c : Dev nD) (t : Fin cfg2.N) :
    (iblk2 (F := Ideal) V c 3 t : FVec Ideal S128x64 .f32) = (V c main_v58 : S128x64.Idx → EReal) := by
  obtain ⟨-, -, -, -, -, -, e30, e31, -⟩ := block_index2 t
  funext y
  show (V c main_v58 : S128x64.Idx → EReal) (((cfg2.win 3).blk t).view.emb y) = (V c main_v58 : S128x64.Idx → EReal) y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- and the bias window's block is the whole bias row. -/
theorem bias2_4_eq (c : Dev nD) (t : Fin cfg2.N) :
    (iblk2 (F := Ideal) V c 4 t : FVec Ideal S1x64 .f32) = (V c main_v59 : S1x64.Idx → EReal) := by
  obtain ⟨-, -, -, -, -, -, -, -, e40, e41, -⟩ := block_index2 t
  funext y
  show (V c main_v59 : S1x64.Idx → EReal) (((cfg2.win 4).blk t).view.emb y) = (V c main_v59 : S1x64.Idx → EReal) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- WHAT POINT `t` WRITES BACK is block `t` of the normalized affine layer of the arrays as the region finds them. -/
theorem flushed2_eq (c : Dev nD) (t : Fin cfg2.N) :
    (dat2 (F := Ideal) V c).flushed 5 t
      = ((cfg2.win 5).blk t).view.read (Elt Ideal)
          (Cert.Sage.onIdx (Cert.Sage.unit (V c main_v56) (V c main_v44) (V c main_v57) (V c main_v58)
            (fun q => V c main_v59 (ix2 (0 : Fin 1) q)))) := by
  show (cfg2.win 5).cut (grid2.coords t) ((dat2 V c).after 5 t) = _
  rw [after2_5]
  unfold out2_5
  rw [View.canon_unit_zero zero_off2]
  simp only [View.ld_unit_zero (S := S5000x128) zero_off2, View.ld_unit_zero (S := S128x64) zero_off2,
    View.ld_unit_zero (S := S1x64) zero_off2]
  obtain ⟨-, -, -, -, -, -, -, -, -, -, e50, e51⟩ := block_index2 t
  funext y
  refine last_block_at (V c main_v56) (V c main_v44) (V c main_v57) (V c main_v58) (V c main_v59)
    (iblk2 V c 0 t) (iblk2 V c 1 t) (iblk2 V c 2 t) (iblk2 V c 3 t) (iblk2 V c 4 t) t.val
    (feat2_0_at V c t) (feat2_1_at V c t) (weight2_2_eq V c t) (weight2_3_eq V c t) (bias2_4_eq V c t)
    y (((cfg2.win 5).blk t).view.emb y) ?_ ?_
  · show win2_5.index t (0 : Fin 2) * 5000 + 1 * (y 0).val = t.val * 5000 + (y 0).val; omega
  · show win2_5.index t (1 : Fin 2) * 64 + 1 * (y 1).val = (y 1).val; omega

/-- An index of the result array is in point `t`'s block iff each coordinate is in the block's range on its axis. -/
theorem mem_blk2 (t : Fin cfg2.N) (i : S50000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v60).slice (win2_5.rect t)).set ↔ _
  rw [View.set_slice_whole, Rect.mem_set_unit]
  exact Iff.rfl

/-- Every index of the result array is in the block of the point its row number divided by 5000 names. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_5 _, ?_⟩
  obtain ⟨-, -, -, -, -, -, -, -, -, -, e50, e51⟩ := block_index2 ⟨(i 0).val / 5000, by rw [hN]; omega⟩
  rw [mem_blk2]
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e51]; omega

theorem final2 (c : Dev nD) :
    (dat2 (F := Ideal) V c).arrAt 5 cfg2.N
      = Cert.Sage.onIdx (Cert.Sage.unit (V c main_v56) (V c main_v44) (V c main_v57) (V c main_v58)
          (fun q => V c main_v59 (ix2 (0 : Fin 1) q))) :=
  (dat2 (F := Ideal) V c).arrAt_eq_of_cover 5 _ (fun t _ => flushed2_eq V c t) cover2

end Cert.KernelIdeal.Named

end
-- ==== Proof.KernelValue.lean ====
/-
  The kernel program's returned array is the three layers in sequence, applied to the launch arguments.

  Each region's output array is the layer of the specification applied to what the region finds in its five input arrays
  (the blocks-to-array theorems); the stretch before it says what those are. So region 0 leaves the hidden layer of the node
  features, region 1 the hidden layer of that, and region 2 — whose output is the returned buffer — the last layer of that.
  A bias enters a region as a `[1, o]` row cast from the `[o]` argument: its entry `(0, q)` is the argument's entry `q`.
-/
import proofs.«117779_j36747740184682_1_alg».proof.Proof.Stretch
import proofs.«117779_j36747740184682_1_alg».proof.Proof.Region0
import proofs.«117779_j36747740184682_1_alg».proof.Proof.Region1
import proofs.«117779_j36747740184682_1_alg».proof.Proof.Region2
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem

/-- An `[a]` array cast to a `[1, a]` row reads, at `(0, q)`, the array at `q`. -/
theorem row_of_vec {a : ℕ} (x : (⟨1, ![a]⟩ : Shape).Idx → EReal) (h : (⟨1, ![a]⟩ : Shape).ShapeCasts ⟨2, ![1, a]⟩) (q : Fin a) :
    shapeCast ⟨2, ![1, a]⟩ x h (ix2 (0 : Fin 1) q) = x (ix1 q) :=
  shapeCast_apply x h _ _ (by
    rw [Shape.rowMajor_val_two, Shape.rowMajor_val_one]
    show q.val = (0 : Fin 1).val * a + q.val
    simp)

variable (m : (ℓ : Loc nD τ sig) → Buf (Elt Ideal) ℓ) (ρ : Dev nD → PrngReg)

/-- Region 0 leaves the first hidden layer of the node features in its output array. -/
theorem after_region0 (c : Dev nD) : W2 m ρ c (Proc.devRef .tc main_v28)
    = hid (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  dsimp only [V1]
  rw [in0_mean, in0_x, in0_wl, in0_wr, in0_b]
  unfold hid
  refine congrArg (fun b => Cert.Sage.onIdx (Cert.Sage.relu _ _ _ _ b)) (funext fun q => ?_)
  exact row_of_vec _ _ q

/-- Region 1 leaves the hidden layer of region 0's output. -/
theorem after_region1 (c : Dev nD) : W4 m ρ c (Proc.devRef .tc main_v44)
    = hid (W2 m ρ c (Proc.devRef .tc main_v28)) (m ((c : Thread nD τ).loc main_arg1)) (m ((c : Thread nD τ).loc main_arg5)) (m ((c : Thread nD τ).loc main_arg6)) (m ((c : Thread nD τ).loc main_arg7)) := by
  refine (W4_arr m ρ c 5).trans ((final1 (V3 m ρ) c).trans ?_)
  dsimp only [V3]
  rw [in1_mean, in1_h, in1_wl, in1_wr, in1_b]
  unfold hid
  refine congrArg (fun b => Cert.Sage.onIdx (Cert.Sage.relu _ _ _ _ b)) (funext fun q => ?_)
  exact row_of_vec _ _ q

/-- Region 2 leaves the last layer of region 1's output. -/
theorem after_region2 (c : Dev nD) : W6 m ρ c (Proc.devRef .tc main_v60)
    = fin (W4 m ρ c (Proc.devRef .tc main_v44)) (m ((c : Thread nD τ).loc main_arg1)) (m ((c : Thread nD τ).loc main_arg8)) (m ((c : Thread nD τ).loc main_arg9)) (m ((c : Thread nD τ).loc main_arg10)) := by
  refine (W6_arr m ρ c 5).trans ((final2 (V5 m ρ) c).trans ?_)
  dsimp only [V5]
  rw [in2_mean, in2_h, in2_wl, in2_wr, in2_b]
  unfold fin
  refine congrArg (fun b => Cert.Sage.onIdx (Cert.Sage.unit _ _ _ _ b)) (funext fun q => ?_)
  exact row_of_vec _ _ q

/-- The returned buffer after the run's last boundary: the network of the eleven arguments. -/
theorem returned (c : Dev nD) : W6 m ρ c (Proc.devRef .tc main_v60)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [after_region2, after_region1, after_region0]
  rfl

end Cert.KernelIdeal.Named

end
-- ==== Proof.RefLayers.lean ====
/-
  The reference, layer by layer, read at one node `p` and one output channel `q`.

  Each layer of the reference computes `(A·Wl + b) + X·Wr` with the bias added between the two products, where `A` is the
  aggregated neighbour array of that layer, `X` the layer's input features, and `Wl`, `Wr` the two weight matrices after
  their transposition to input-channel-first layout. Read at `(p, q)`, a product is the sum over the 128 input channels
  `k` of the left operand at `(p, k)` times the right at `(k, q)`, and the broadcast bias is `b q`. Moving the bias to the
  end is `Cert.Sage.lin_bias_between`, so every layer's affine part is `Cert.Sage.lin`. The first two layers then clamp
  below at the zero word (`Cert.Sage.relu`); the third divides by the larger of the row's Euclidean length and a small
  word (`Cert.Sage.unit`), the squared length being the sum over the 64 output channels of the affine part squared, the
  sum's initial value being the zero word.

  The aggregated arrays and the transposed weights stay unopened on both sides of every equation.
-/
import proofs.«117779_j36747740184682_1_alg».proof.Proof.Gen.ReferenceIdeal.Read
import proofs.«117779_j36747740184682_1_alg».proof.Proof.Spec
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem

/-! ### Where each operand is read

At output position `(p, q)` and contraction position `k`, the left operand of a product is read at `(p, k)` and the right
at `(k, q)`; the bias, broadcast first to one row and then to every row, is read at `q`. -/

private theorem lidx26 (p : Fin 50000) (q k : Fin 128) : lidx_main_v26 (ix2 p q) k = ix2 p k := funext fun a => Fin.ext (by match a with | ⟨0, _⟩ => rfl | ⟨1, _⟩ => rfl)
private theorem ridx26 (p : Fin 50000) (q k : Fin 128) : ridx_main_v26 (ix2 p q) k = ix2 k q := funext fun a => Fin.ext (by match a with | ⟨0, _⟩ => rfl | ⟨1, _⟩ => rfl)
private theorem lidx31 (p : Fin 50000) (q k : Fin 128) : lidx_main_v31 (ix2 p q) k = ix2 p k := funext fun a => Fin.ext (by match a with | ⟨0, _⟩ => rfl | ⟨1, _⟩ => rfl)
private theorem ridx31 (p : Fin 50000) (q k : Fin 128) : ridx_main_v31 (ix2 p q) k = ix2 k q := funext fun a => Fin.ext (by match a with | ⟨0, _⟩ => rfl | ⟨1, _⟩ => rfl)
private theorem bias1 (p : Fin 50000) (q : Fin 128) : idx_main_v27 (idx_main_v28 (ix2 p q)) = ix1 q := funext fun a => Fin.ext (by match a with | ⟨0, _⟩ => rfl)

private theorem lidx47 (p : Fin 50000) (q k : Fin 128) : lidx_main_v47 (ix2 p q) k = ix2 p k := funext fun a => Fin.ext (by match a with | ⟨0, _⟩ => rfl | ⟨1, _⟩ => rfl)
private theorem ridx47 (p : Fin 50000) (q k : Fin 128) : ridx_main_v47 (ix2 p q) k = ix2 k q := funext fun a => Fin.ext (by match a with | ⟨0, _⟩ => rfl | ⟨1, _⟩ => rfl)
private theorem lidx52 (p : Fin 50000) (q k : Fin 128) : lidx_main_v52 (ix2 p q) k = ix2 p k := funext fun a => Fin.ext (by match a with | ⟨0, _⟩ => rfl | ⟨1, _⟩ => rfl)
private theorem ridx52 (p : Fin 50000) (q k : Fin 128) : ridx_main_v52 (ix2 p q) k = ix2 k q := funext fun a => Fin.ext (by match a with | ⟨0, _⟩ => rfl | ⟨1, _⟩ => rfl)
private theorem bias2 (p : Fin 50000) (q : Fin 128) : idx_main_v48 (idx_main_v49 (ix2 p q)) = ix1 q := funext fun a => Fin.ext (by match a with | ⟨0, _⟩ => rfl)

private theorem lidx68 (p : Fin 50000) (q : Fin 64) (k : Fin 128) : lidx_main_v68 (ix2 p q) k = ix2 p k := funext fun a => Fin.ext (by match a with | ⟨0, _⟩ => rfl | ⟨1, _⟩ => rfl)
private theorem ridx68 (p : Fin 50000) (q : Fin 64) (k : Fin 128) : ridx_main_v68 (ix2 p q) k = ix2 k q := funext fun a => Fin.ext (by match a with | ⟨0, _⟩ => rfl | ⟨1, _⟩ => rfl)
private theorem lidx73 (p : Fin 50000) (q : Fin 64) (k : Fin 128) : lidx_main_v73 (ix2 p q) k = ix2 p k := funext fun a => Fin.ext (by match a with | ⟨0, _⟩ => rfl | ⟨1, _⟩ => rfl)
private theorem ridx73 (p : Fin 50000) (q : Fin 64) (k : Fin 128) : ridx_main_v73 (ix2 p q) k = ix2 k q := funext fun a => Fin.ext (by match a with | ⟨0, _⟩ => rfl | ⟨1, _⟩ => rfl)
private theorem bias3 (p : Fin 50000) (q : Fin 64) : idx_main_v69 (idx_main_v70 (ix2 p q)) = ix1 q := funext fun a => Fin.ext (by match a with | ⟨0, _⟩ => rfl)

/-- The row length is broadcast along the 64 channels, so at `(p, q)` it is read at row `p`; that row's sum of squares runs over
the positions `(p, j)`. -/
private theorem rowIdx (p : Fin 50000) (q : Fin 64) : idx_main_call2_v2 (idx_main_v78 (ix2 p q)) = ix1 p := funext fun a => Fin.ext (by match a with | ⟨0, _⟩ => rfl)
private theorem sumIdx (p : Fin 50000) (j : Fin 64) : idx_main_call2_v1 (ix1 p) j = ix2 p j := funext fun a => Fin.ext (by match a with | ⟨0, _⟩ => rfl | ⟨1, _⟩ => rfl)

/-! ### The three layers -/

theorem layer1_at (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (p : Fin 50000) (q : Fin 128) :
    val_main_v33 (F := Ideal) x0 x1 x2 x3 x4 (ix2 p q)
      = Cert.Sage.relu (val_main_v24 (F := Ideal) x0 x1) x0 (val_main_v25 (F := Ideal) x2) (val_main_v30 (F := Ideal) x3) (fun c => x4 (ix1 c)) p q := by
  rw [val_main_v33_apply, val_main_v32_apply, val_main_v29_apply, val_main_v26_apply, val_main_v31_apply, val_main_v28_apply,
    val_main_v27_apply, val_main_call0_v0_apply, val_main_call0_cst_apply]
  simp only [lidx26, ridx26, lidx31, ridx31, bias1, Ideal.maximumf_def, Ideal.addf_def, Ideal.ofBits_def]
  exact congrArg (fun t => max t (Ideal.ofBits .f32 0x00000000#32))
    (Cert.Sage.lin_bias_between (val_main_v24 (F := Ideal) x0 x1) x0 (val_main_v25 (F := Ideal) x2) (val_main_v30 (F := Ideal) x3)
      (fun c => x4 (ix1 c)) p q)

theorem layer2_at (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (p : Fin 50000) (q : Fin 128) :
    val_main_v54 (F := Ideal) x0 x1 x2 x3 x4 x5 x6 x7 (ix2 p q)
      = Cert.Sage.relu (val_main_v45 (F := Ideal) x0 x1 x2 x3 x4) (val_main_v33 (F := Ideal) x0 x1 x2 x3 x4) (val_main_v46 (F := Ideal) x5) (val_main_v51 (F := Ideal) x6) (fun c => x7 (ix1 c)) p q := by
  rw [val_main_v54_apply, val_main_v53_apply, val_main_v50_apply, val_main_v47_apply, val_main_v52_apply, val_main_v49_apply,
    val_main_v48_apply, val_main_call1_v0_apply, val_main_call1_cst_apply]
  simp only [lidx47, ridx47, lidx52, ridx52, bias2, Ideal.maximumf_def, Ideal.addf_def, Ideal.ofBits_def]
  exact congrArg (fun t => max t (Ideal.ofBits .f32 0x00000000#32))
    (Cert.Sage.lin_bias_between (val_main_v45 (F := Ideal) x0 x1 x2 x3 x4) (val_main_v33 (F := Ideal) x0 x1 x2 x3 x4)
      (val_main_v46 (F := Ideal) x5) (val_main_v51 (F := Ideal) x6) (fun c => x7 (ix1 c)) p q)

/-- The affine part of the third layer at node `p`, at every output channel `j`. -/
theorem affine3_at (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S64x128, .f32⟩ : BufTy).Contents (Elt Ideal)) (x10 : (⟨S64, .f32⟩ : BufTy).Contents (Elt Ideal)) (p : Fin 50000) (j : Fin 64) :
    val_main_v74 (F := Ideal) x0 x1 x2 x3 x4 x5 x6 x7 x8 x9 x10 (ix2 p j)
      = Cert.Sage.lin (val_main_v66 (F := Ideal) x0 x1 x2 x3 x4 x5 x6 x7) (val_main_v54 (F := Ideal) x0 x1 x2 x3 x4 x5 x6 x7) (val_main_v67 (F := Ideal) x8) (val_main_v72 (F := Ideal) x9) (fun c => x10 (ix1 c)) p j := by
  rw [val_main_v74_apply, val_main_v71_apply, val_main_v68_apply, val_main_v73_apply, val_main_v70_apply, val_main_v69_apply]
  simp only [lidx68, ridx68, lidx73, ridx73, bias3, Ideal.addf_def]
  exact Cert.Sage.lin_bias_between (val_main_v66 (F := Ideal) x0 x1 x2 x3 x4 x5 x6 x7) (val_main_v54 (F := Ideal) x0 x1 x2 x3 x4 x5 x6 x7)
    (val_main_v67 (F := Ideal) x8) (val_main_v72 (F := Ideal) x9) (fun c => x10 (ix1 c)) p j

/-- The squared Euclidean length of node `p`'s affine row in the third layer: the sum starts from the zero word, which is `0`. -/
theorem sq3_at (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S64x128, .f32⟩ : BufTy).Contents (Elt Ideal)) (x10 : (⟨S64, .f32⟩ : BufTy).Contents (Elt Ideal)) (p : Fin 50000) :
    val_main_call2_v1 (F := Ideal) x0 x1 x2 x3 x4 x5 x6 x7 x8 x9 x10 (ix1 p)
      = Cert.Sage.sq (val_main_v66 (F := Ideal) x0 x1 x2 x3 x4 x5 x6 x7) (val_main_v54 (F := Ideal) x0 x1 x2 x3 x4 x5 x6 x7) (val_main_v67 (F := Ideal) x8) (val_main_v72 (F := Ideal) x9) (fun c => x10 (ix1 c)) p := by
  unfold Cert.Sage.sq
  rw [val_main_call2_v1_apply, val_main_call2_cst_apply, Ideal.ofBits_def, Ideal.ofBits_zero_f32, zero_add]
  refine Finset.sum_congr rfl fun j _ => ?_
  rw [sumIdx, val_main_call2_v0_apply, affine3_at, Ideal.mulf_def]

theorem layer3_at (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S64x128, .f32⟩ : BufTy).Contents (Elt Ideal)) (x10 : (⟨S64, .f32⟩ : BufTy).Contents (Elt Ideal)) (p : Fin 50000) (q : Fin 64) :
    val_main_v79 (F := Ideal) x0 x1 x2 x3 x4 x5 x6 x7 x8 x9 x10 (ix2 p q)
      = Cert.Sage.unit (val_main_v66 (F := Ideal) x0 x1 x2 x3 x4 x5 x6 x7) (val_main_v54 (F := Ideal) x0 x1 x2 x3 x4 x5 x6 x7) (val_main_v67 (F := Ideal) x8) (val_main_v72 (F := Ideal) x9) (fun c => x10 (ix1 c)) p q := by
  rw [val_main_v79_apply, val_main_v78_apply, val_main_v77_apply, val_main_v75_apply, val_main_call2_v2_apply, val_main_v76_apply,
    val_main_cst_11_apply, rowIdx, sq3_at, affine3_at, Ideal.hostDivf_def, Ideal.hostUnary_sqrt_def, Ideal.maximumf_def, Ideal.ofBits_def]
  unfold Cert.Sage.unit
  rfl

end Cert.ReferenceIdeal.Layers

end
-- ==== Proof.RefChain.lean ====
/-
  The reference's stages are the shared chain and the layers of the specification.

  Its three neighbour means are the chain `mean` applied to the node features and then to each hidden layer's output (the same
  host operations, with the same dimension records, in the same order); its transposed weights are `tr` / `trLast` of the
  arguments. With each layer read at an index (the three layer lemmas), every hidden stage is `hid` of the previous one and the
  returned array is `net` of the eleven arguments.
-/
import proofs.«117779_j36747740184682_1_alg».proof.Proof.Gen.ReferenceIdeal.Read
import proofs.«117779_j36747740184682_1_alg».proof.Proof.RefLayers
import proofs.«117779_j36747740184682_1_alg».proof.Proof.Chain

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem
open Cert.KernelIdeal.Named (mean tr trLast hid fin net)

variable (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S64x128, .f32⟩ : BufTy).Contents (Elt Ideal)) (x10 : (⟨S64, .f32⟩ : BufTy).Contents (Elt Ideal))

/-! ## The shared chain, stage by stage -/

theorem mean1_eq : val_main_v24 (F := Ideal) x0 x1 = mean x0 x1 := rfl
theorem mean2_eq : val_main_v45 (F := Ideal) x0 x1 x2 x3 x4 = mean (val_main_v33 (F := Ideal) x0 x1 x2 x3 x4) x1 := rfl
theorem mean3_eq : val_main_v66 (F := Ideal) x0 x1 x2 x3 x4 x5 x6 x7 = mean (val_main_v54 (F := Ideal) x0 x1 x2 x3 x4 x5 x6 x7) x1 := rfl

theorem wl1_eq : val_main_v25 (F := Ideal) x2 = tr x2 := rfl
theorem wr1_eq : val_main_v30 (F := Ideal) x3 = tr x3 := rfl
theorem wl2_eq : val_main_v46 (F := Ideal) x5 = tr x5 := rfl
theorem wr2_eq : val_main_v51 (F := Ideal) x6 = tr x6 := rfl
theorem wl3_eq : val_main_v67 (F := Ideal) x8 = trLast x8 := rfl
theorem wr3_eq : val_main_v72 (F := Ideal) x9 = trLast x9 := rfl

/-! ## The layers as whole arrays -/

/-- The first hidden stage is the hidden layer of the node features. -/
theorem hidden1_eq : val_main_v33 (F := Ideal) x0 x1 x2 x3 x4 = hid x0 x1 x2 x3 x4 := by
  funext i
  obtain ⟨p, q, rfl⟩ : ∃ (p : Fin 50000) (q : Fin 128), i = ix2 p q := ⟨i 0, i 1, eq_ix2 i⟩
  rw [layer1_at, mean1_eq, wl1_eq, wr1_eq]
  rfl

/-- The second hidden stage is the hidden layer of the first. -/
theorem hidden2_eq : val_main_v54 (F := Ideal) x0 x1 x2 x3 x4 x5 x6 x7 = hid (hid x0 x1 x2 x3 x4) x1 x5 x6 x7 := by
  funext i
  obtain ⟨p, q, rfl⟩ : ∃ (p : Fin 50000) (q : Fin 128), i = ix2 p q := ⟨i 0, i 1, eq_ix2 i⟩
  rw [layer2_at, mean2_eq, wl2_eq, wr2_eq, hidden1_eq]
  rfl

/-- The returned array is the three layers in sequence. -/
theorem out_eq : val_main_v79 (F := Ideal) x0 x1 x2 x3 x4 x5 x6 x7 x8 x9 x10 = net x0 x1 x2 x3 x4 x5 x6 x7 x8 x9 x10 := by
  funext i
  obtain ⟨p, q, rfl⟩ : ∃ (p : Fin 50000) (q : Fin 64), i = ix2 p q := ⟨i 0, i 1, eq_ix2 i⟩
  rw [layer3_at, mean3_eq, wl3_eq, wr3_eq, hidden2_eq]
  rfl

end Cert.ReferenceIdeal.Layers

end
-- ==== Proof.lean ====
/-
  Three GraphSAGE layers with mean aggregation, the last one L2-normalised: the Pallas program against its jnp reference,
  over the extended reals.

  Both programs compute, for every layer, the mean of each node's in-neighbours' features with the same host operations
  (a gather along the edges' sources, a scatter-add along their destinations, a row-wise scaling by one over the in-degree);
  only the dense part of a layer differs. The kernel forms (mean · Wlᵀ + h · Wrᵀ) + b inside a pallas_call over blocks of
  5000 nodes, its operands narrowed to bf16 on the way into the two matrix products; the reference forms
  (mean · Wlᵀ + b) + h · Wrᵀ on whole arrays. On the extended reals a change of float format is the identity, a product
  accumulated into zeros is the plain sum over the 128 input channels, and addition is commutative and associative without
  any side condition, so the two affine parts are the same number; the clamp at zero, and in the last layer the division
  by max(√Σ_j lin², small word), are then the same operations of equal arguments. By induction over the three layers the
  two returned arrays are equal entry by entry — no finiteness of the inputs is used.

  Assembly: the kernel program's run, read at its returned buffer, is `net` of the arguments (the launch over the three
  regions, each region's output array from its blocks, each host stretch read back); the reference's run ends at the same
  `net` (its stages read one operation at a time). The frames of the two kernel programs are the launch's; the reference's
  frame is its run with the result dropped; the idealisation rewrote nothing, so `preserves` is trivial.
-/
import proofs.«117779_j36747740184682_1_alg».proof.Defs
import proofs.«117779_j36747740184682_1_alg».proof.Proof.Gen.Kernel
import proofs.«117779_j36747740184682_1_alg».proof.Proof.Gen.Kernel.Skeleton
import proofs.«117779_j36747740184682_1_alg».proof.Proof.Gen.Kernel.Launch
import proofs.«117779_j36747740184682_1_alg».proof.Proof.Gen.Kernel.Points
import proofs.«117779_j36747740184682_1_alg».proof.Proof.Gen.Kernel.Frame
import proofs.«117779_j36747740184682_1_alg».proof.Proof.Gen.KernelIdeal
import proofs.«117779_j36747740184682_1_alg».proof.Proof.Gen.KernelIdeal.Skeleton
import proofs.«117779_j36747740184682_1_alg».proof.Proof.Gen.KernelIdeal.Launch
import proofs.«117779_j36747740184682_1_alg».proof.Proof.Gen.KernelIdeal.Points
import proofs.«117779_j36747740184682_1_alg».proof.Proof.Gen.KernelIdeal.Frame
import proofs.«117779_j36747740184682_1_alg».proof.Proof.Gen.ReferenceIdeal
import proofs.«117779_j36747740184682_1_alg».proof.Proof.Gen.Pre_finite_inputs
import proofs.«117779_j36747740184682_1_alg».proof.Proof.Gen.ReferenceIdeal.Run
import proofs.«117779_j36747740184682_1_alg».proof.Proof.Gen.ReferenceIdeal.Read
import proofs.«117779_j36747740184682_1_alg».proof.Proof.KernelRun
import proofs.«117779_j36747740184682_1_alg».proof.Proof.KernelValue
import proofs.«117779_j36747740184682_1_alg».proof.Proof.RefChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealised programs end with the network of the (agreeing) arguments in their returned buffers. -/
theorem algebraic : Cert.algebraic_KernelIdeal_ReferenceIdeal := by
  intro m ρ m' ρ' _ hagree
  refine ⟨fun c => Cert.KernelIdeal.Named.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Gen.mem_uc Cert.KernelIdeal.main_v60 (by decide))).trans (Cert.KernelIdeal.Named.returned m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c),
       (h c _ (Cert.KernelIdeal.Gen.mem_uc Cert.KernelIdeal.main_arg6 (by decide))).trans (Cert.KernelIdeal.Gen.W6_main_arg6 m ρ c),
       (h c _ (Cert.KernelIdeal.Gen.mem_uc Cert.KernelIdeal.main_arg7 (by decide))).trans (Cert.KernelIdeal.Gen.W6_main_arg7 m ρ c),
       (h c _ (Cert.KernelIdeal.Gen.mem_uc Cert.KernelIdeal.main_arg8 (by decide))).trans (Cert.KernelIdeal.Gen.W6_main_arg8 m ρ c),
       (h c _ (Cert.KernelIdeal.Gen.mem_uc Cert.KernelIdeal.main_arg9 (by decide))).trans (Cert.KernelIdeal.Gen.W6_main_arg9 m ρ c),
       (h c _ (Cert.KernelIdeal.Gen.mem_uc Cert.KernelIdeal.main_arg10 (by decide))).trans (Cert.KernelIdeal.Gen.W6_main_arg10 m ρ c)⟩)
      (Cert.KernelIdeal.Named.run_final m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v79_eq, Cert.ReferenceIdeal.Layers.out_eq,
      e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
